-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S24x64 : Shape := ⟨2, ![24, 64]⟩
abbrev S1200000x1 : Shape := ⟨2, ![1200000, 1]⟩
abbrev S_ : Shape := ⟨0, ![]⟩
abbrev S1x1200000 : Shape := ⟨2, ![1, 1200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S24x64 : S_.BroadcastsInDim S24x64 (![] : Fin 0 → Fin S24x64.rank)
  reducesTo_S24x64_S_d0_1 : S24x64.ReducesTo [0, 1] S_
  bcast_S_S1200000x1 : S_.BroadcastsInDim S1200000x1 (![] : Fin 0 → Fin S1200000x1.rank)
  reducesTo_S1200000x1_S_d0_1 : S1200000x1.ReducesTo [0, 1] S_
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part1 {F : FTy → Type} [FloatOps F] (main_arg1 : IVec S2x1200000 32) (main_arg2 : IVec S1200000 32) (main_v13 : IVec S_ 1) (main_v15 : IVec S1200000 32) (main_v16 : IVec S1200000 32) : IVec S_ 1 :=
  let main_v17 : IVec S1200000 1 := cmpi .sge main_v15 main_v16
  let main_v18 : IVec S1x1200000 32 := (extractStridedSlice S1x1200000 ![1, 0] · slices_S2x1200000_S1x1200000_1_0) main_arg1
  let main_v19 : IVec S1200000 32 := shapeCast S1200000 main_v18 shapeCasts_S1x1200000_S1200000
  let main_c_5 : IVec S_ 32 := constantI S_ 32 100000#32
  let main_v20 : IVec S1200000 32 := broadcastInDim S1200000 ![] bcast_S_S1200000 main_c_5
  let main_v21 : IVec S1200000 1 := cmpi .slt main_v19 main_v20
  let main_v22 : IVec S1200000 1 := andi main_v17 main_v21
  let main_c_6 : IVec S_ 1 := constantI S_ 1 1#1
  let main_v23 : IVec S_ 1 := (fun x v => Host.reduce IntOp.andi x v reducesTo_S1200000_S_d0 h_S_) main_v22 main_c_6
  let main_v24 : IVec S_ 1 := andi main_v13 main_v23
  let main_c_7 : IVec S_ 32 := constantI S_ 32 0#32
  let main_v25 : IVec S1200000 32 := broadcastInDim S1200000 ![] bcast_S_S1200000 main_c_7
  let main_v26 : IVec S1200000 1 := cmpi .sge main_arg2 main_v25
  let main_c_8 : IVec S_ 32 := constantI S_ 32 24#32
  let main_v27 : IVec S1200000 32 := broadcastInDim S1200000 ![] bcast_S_S1200000 main_c_8
  let main_v28 : IVec S1200000 1 := cmpi .slt main_arg2 main_v27
  let main_v29 : IVec S1200000 1 := andi main_v26 main_v28
  let main_c_9 : IVec S_ 1 := constantI S_ 1 1#1
  let main_v30 : IVec S_ 1 := (fun x v => Host.reduce IntOp.andi x v reducesTo_S1200000_S_d0 h_S_) main_v29 main_c_9
  let main_v31 : IVec S_ 1 := andi main_v24 main_v30
  main_v31

def fn {F : FTy → Type} [FloatOps F] (main_arg0 : FVec F S100000x64 .f32) (main_arg1 : IVec S2x1200000 32) (main_arg2 : IVec S1200000 32) (main_arg3 : FVec F S24x64 .f32) (main_arg4 : FVec F S1200000x1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S24x64 .f32 := Host.absf main_arg3
  let main_cst_0 : FVec F S_ .f32 := constant S_ .f32 0x7F800000#32
  let main_v5 : FVec F S24x64 .f32 := broadcastInDim S24x64 ![] bcast_S_S24x64 main_cst_0
  let main_v6 : IVec S24x64 1 := cmpf .olt main_v4 main_v5
  let main_c_1 : IVec S_ 1 := constantI S_ 1 1#1
  let main_v7 : IVec S_ 1 := (fun x v => Host.reduce IntOp.andi x v reducesTo_S24x64_S_d0_1 h_S_) main_v6 main_c_1
  let main_v8 : IVec S_ 1 := andi main_v3 main_v7
  let main_v9 : FVec F S1200000x1 .f32 := Host.absf main_arg4
  let main_cst_2 : FVec F S_ .f32 := constant S_ .f32 0x7F800000#32
  let main_v10 : FVec F S1200000x1 .f32 := broadcastInDim S1200000x1 ![] bcast_S_S1200000x1 main_cst_2
  let main_v11 : IVec S1200000x1 1 := cmpf .olt main_v9 main_v10
  let main_c_3 : IVec S_ 1 := constantI S_ 1 1#1
  let main_v12 : IVec S_ 1 := (fun x v => Host.reduce IntOp.andi x v reducesTo_S1200000x1_S_d0_1 h_S_) main_v11 main_c_3
  let main_v13 : IVec S_ 1 := andi main_v8 main_v12
  let main_v14 : IVec S1x1200000 32 := (extractStridedSlice S1x1200000 ![1, 0] · slices_S2x1200000_S1x1200000_1_0) main_arg1
  let main_v15 : IVec S1200000 32 := shapeCast S1200000 main_v14 shapeCasts_S1x1200000_S1200000
  let main_c_4 : IVec S_ 32 := constantI S_ 32 0#32
  let main_v16 : IVec S1200000 32 := broadcastInDim S1200000 ![] bcast_S_S1200000 main_c_4
  fn_part1 (F := F) main_arg1 main_arg2 main_v13 main_v15 main_v16
-- ==== Kernel.lean ====
abbrev S100000x64 : Shape := ⟨2, ![100000, 64]⟩
abbrev S2x1200000 : Shape := ⟨2, ![2, 1200000]⟩
abbrev S1200000 : Shape := ⟨1, ![1200000]⟩
abbrev S24x64 : Shape := ⟨2, ![24, 64]⟩
abbrev S1200000x1 : Shape := ⟨2, ![1200000, 1]⟩
abbrev S1x1200000 : Shape := ⟨2, ![1, 1200000]⟩
abbrev S_ : Shape := ⟨0, ![]⟩
abbrev S1204224 : Shape := ⟨1, ![1204224]⟩
abbrev S1204224x1 : Shape := ⟨2, ![1204224, 1]⟩
abbrev S1 : Shape := ⟨1, ![1]⟩
abbrev S1x1 : Shape := ⟨2, ![1, 1]⟩
abbrev S1204224x64 : Shape := ⟨2, ![1204224, 64]⟩
abbrev S8192x64 : Shape := ⟨2, ![8192, 64]⟩
abbrev S8192 : Shape := ⟨1, ![8192]⟩
abbrev S8192x1 : Shape := ⟨2, ![8192, 1]⟩
abbrev S8192x24 : Shape := ⟨2, ![8192, 24]⟩
abbrev S100001x64 : Shape := ⟨2, ![100001, 64]⟩

abbrev nBuf : Space → Nat
  | .hbm => 51
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .i32⟩
  | .hbm, ⟨3, _⟩ => ⟨S24x64, .f32⟩
  | .hbm, ⟨4, _⟩ => ⟨S1200000x1, .f32⟩
  | .hbm, ⟨5, _⟩ => ⟨S1x1200000, .i32⟩
  | .hbm, ⟨6, _⟩ => ⟨S1200000, .i32⟩
  | .hbm, ⟨7, _⟩ => ⟨S1x1200000, .i32⟩
  | .hbm, ⟨8, _⟩ => ⟨S1200000, .i32⟩
  | .hbm, ⟨9, _⟩ => ⟨S1200000, .f32⟩
  | .hbm, ⟨10, _⟩ => ⟨S_, .i32⟩
  | .hbm, ⟨11, _⟩ => ⟨S_, .i32⟩
  | .hbm, ⟨12, _⟩ => ⟨S1204224, .i32⟩
  | .hbm, ⟨13, _⟩ => ⟨S_, .i32⟩
  | .hbm, ⟨14, _⟩ => ⟨S_, .i32⟩
  | .hbm, ⟨15, _⟩ => ⟨S1204224, .i32⟩
  | .hbm, ⟨16, _⟩ => ⟨S_, .i32⟩
  | .hbm, ⟨17, _⟩ => ⟨S_, .f32⟩
  | .hbm, ⟨18, _⟩ => ⟨S1204224, .f32⟩
  | .hbm, ⟨19, _⟩ => ⟨S_, .i32⟩
  | .hbm, ⟨20, _⟩ => ⟨S_, .i32⟩
  | .hbm, ⟨21, _⟩ => ⟨S1204224, .i32⟩
  | .hbm, ⟨22, _⟩ => ⟨S_, .i32⟩
  | .hbm, ⟨23, _⟩ => ⟨S1204224, .i32⟩
  | .hbm, ⟨24, _⟩ => ⟨S1204224, .i1⟩
  | .hbm, ⟨25, _⟩ => ⟨S_, .i32⟩
  | .hbm, ⟨26, _⟩ => ⟨S1204224, .i32⟩
  | .hbm, ⟨27, _⟩ => ⟨S1204224, .i32⟩
  | .hbm, ⟨28, _⟩ => ⟨S1204224, .i32⟩
  | .hbm, ⟨29, _⟩ => ⟨S1204224x1, .i32⟩
  | .hbm, ⟨30, _⟩ => ⟨S1, .i32⟩
  | .hbm, ⟨31, _⟩ => ⟨S_, .i32⟩
  | .hbm, ⟨32, _⟩ => ⟨S1204224x1, .i32⟩
  | .hbm, ⟨33, _⟩ => ⟨S1204224x1, .i1⟩
  | .hbm, ⟨34, _⟩ => ⟨S1x1, .i32⟩
  | .hbm, ⟨35, _⟩ => ⟨S1204224x1, .i32⟩
  | .hbm, ⟨36, _⟩ => ⟨S1204224x1, .i1⟩
  | .hbm, ⟨37, _⟩ => ⟨S1204224x1, .i1⟩
  | .hbm, ⟨38, _⟩ => ⟨S_, .i1⟩
  | .hbm, ⟨39, _⟩ => ⟨S1204224, .i1⟩
  | .hbm, ⟨40, _⟩ => ⟨S1204224x64, .f32⟩
  | .hbm, ⟨41, _⟩ => ⟨S1204224x64, .i1⟩
  | .hbm, ⟨42, _⟩ => ⟨S_, .f32⟩
  | .hbm, ⟨43, _⟩ => ⟨S1204224x64, .f32⟩
  | .hbm, ⟨44, _⟩ => ⟨S1204224x64, .f32⟩
  | .hbm, ⟨45, _⟩ => ⟨S1204224x64, .f32⟩
  | .hbm, ⟨46, _⟩ => ⟨S_, .f32⟩
  | .hbm, ⟨47, _⟩ => ⟨S100001x64, .f32⟩
  | .hbm, ⟨48, _⟩ => ⟨S1204224x1, .i32⟩
  | .hbm, ⟨49, _⟩ => ⟨S100001x64, .f32⟩
  | .hbm, ⟨50, _⟩ => ⟨S100000x64, .f32⟩
  | .local _ .vmem, ⟨0, _⟩ => ⟨S8192x64, .f32⟩
  | .local _ .vmem, ⟨1, _⟩ => ⟨S8192x64, .f32⟩
  | .local _ .vmem, ⟨2, _⟩ => ⟨S8192, .i32⟩
  | .local _ .vmem, ⟨3, _⟩ => ⟨S8192, .i32⟩
  | .local _ .vmem, ⟨4, _⟩ => ⟨S8192, .f32⟩
  | .local _ .vmem, ⟨5, _⟩ => ⟨S8192, .f32⟩
  | .local _ .vmem, ⟨6, _⟩ => ⟨S24x64, .f32⟩
  | .local _ .vmem, ⟨7, _⟩ => ⟨S8192x64, .f32⟩
  | .local _ .vmem, ⟨8, _⟩ => ⟨S8192x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_c_2 : Ref sig .tc := ⟨.hbm, 19, rfl⟩
abbrev main_call3_v0 : Ref sig .tc := ⟨.hbm, 20, rfl⟩
abbrev main_v8 : Ref sig .tc := ⟨.hbm, 21, rfl⟩
abbrev main_call4_c : Ref sig .tc := ⟨.hbm, 22, rfl⟩
abbrev main_call4_v0 : Ref sig .tc := ⟨.hbm, 23, rfl⟩
abbrev main_call4_v1 : Ref sig .tc := ⟨.hbm, 24, rfl⟩
abbrev main_call4_c_0 : Ref sig .tc := ⟨.hbm, 25, rfl⟩
abbrev main_call4_v2 : Ref sig .tc := ⟨.hbm, 26, rfl⟩
abbrev main_call4_v3 : Ref sig .tc := ⟨.hbm, 27, rfl⟩
abbrev main_call4_v4 : Ref sig .tc := ⟨.hbm, 28, rfl⟩
abbrev main_call4_v5 : Ref sig .tc := ⟨.hbm, 29, rfl⟩
abbrev main_call4_c_1 : Ref sig .tc := ⟨.hbm, 30, rfl⟩
abbrev main_call4_c_2 : Ref sig .tc := ⟨.hbm, 31, rfl⟩
abbrev main_call4_v6 : Ref sig .tc := ⟨.hbm, 32, rfl⟩
abbrev main_call4_v7 : Ref sig .tc := ⟨.hbm, 33, rfl⟩
abbrev main_call4_v8 : Ref sig .tc := ⟨.hbm, 34, rfl⟩
abbrev main_call4_v9 : Ref sig .tc := ⟨.hbm, 35, rfl⟩
abbrev main_call4_v10 : Ref sig .tc := ⟨.hbm, 36, rfl⟩
abbrev main_call4_v11 : Ref sig .tc := ⟨.hbm, 37, rfl⟩
abbrev main_call4_c_3 : Ref sig .tc := ⟨.hbm, 38, rfl⟩
abbrev main_call4_v12 : Ref sig .tc := ⟨.hbm, 39, rfl⟩
abbrev main_call4_v13 : Ref sig .tc := ⟨.hbm, 40, rfl⟩
abbrev main_call4_v14 : Ref sig .tc := ⟨.hbm, 41, rfl⟩
abbrev main_call4_cst : Ref sig .tc := ⟨.hbm, 42, rfl⟩
abbrev main_call4_v15 : Ref sig .tc := ⟨.hbm, 43, rfl⟩
abbrev main_v9 : Ref sig .tc := ⟨.hbm, 44, rfl⟩
abbrev main_v10 : Ref sig .tc := ⟨.hbm, 45, rfl⟩
abbrev main_cst : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  shapeCasts_S1200000x1_S1200000 : S1200000x1.ShapeCasts S1200000
  pads_S1200000_S1204224_042240 : S1200000.Pads (![0] : Fin 1 → Nat) ![4224] ![0] S1204224
  h_S_ : 0 < S_.numel
  bcast_S_S1204224 : S_.BroadcastsInDim S1204224 (![] : Fin 0 → Fin S1204224.rank)
  bcast_S1204224_S1204224x1_0 : S1204224.BroadcastsInDim S1204224x1 (![0] : Fin 1 → Fin S1204224x1.rank)
  bcast_S_S1204224x1 : S_.BroadcastsInDim S1204224x1 (![] : Fin 0 → Fin S1204224x1.rank)
  bcast_S1_S1x1_1 : S1.BroadcastsInDim S1x1 (![1] : Fin 1 → Fin S1x1.rank)
  bcast_S1x1_S1204224x1_0_1 : S1x1.BroadcastsInDim S1204224x1 (![0, 1] : Fin 2 → Fin S1204224x1.rank)
  reducesTo_S1204224x1_S1204224_d1 : S1204224x1.ReducesTo [1] S1204224
  bcast_S1204224_S1204224x64_0 : S1204224.BroadcastsInDim S1204224x64 (![0] : Fin 1 → Fin S1204224x64.rank)
  bcast_S_S1204224x64 : S_.BroadcastsInDim S1204224x64 (![] : Fin 0 → Fin S1204224x64.rank)
  inb_S8192_S8192_0 : ∀ a, (![0] : Fin 1 → Nat) a + S8192.size a ≤ S8192.size a
  h_S8192 : 0 < S8192.numel
  shapeCasts_S8192_S8192 : S8192.ShapeCasts S8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  shapeCasts_S8192_S8192x1 : S8192.ShapeCasts S8192x1
  iota_S8192x24_d1_w32 : S8192x24.Iotas .tc 32 [1]
  broadcasts_S8192x1_S8192x24 : S8192x1.Broadcasts S8192x24
  shapeCasts_S8192x1_S8192x1 : S8192x1.ShapeCasts S8192x1
  bitsLt_bf16_f32 : FTy.bits .bf16 < FTy.bits .f32
  inb_S24x64_S24x64_0_0 : ∀ a, (![0, 0] : Fin 2 → Nat) a + S24x64.size a ≤ S24x64.size a
  h_S24x64 : 0 < S24x64.numel
  bcast_S_S100001x64 : S_.BroadcastsInDim S100001x64 (![] : Fin 0 → Fin S100001x64.rank)
  slices_S100001x64_S100000x64_0_0 : S100001x64.Slices ![0, 0] S100000x64
  gather_S100000x64_S1204224x1_S1204224x64_1_0_n_n_0_1_164_wf : GatherDims.WF S100000x64 S1204224x1 S1204224x64 [1] [0] [] [0] [] 1 ![1, 64]
  dot_S8192x24_S24x64_S8192x64_1_0_0_1_n_n_wf : DotDims.WF S8192x24 S24x64 S8192x64 [1] [0] [0] [1] [] []
  scatter_S100001x64_S1204224x1_S1204224x64_1_0_0_1_wf : ScatterDims.WF S100001x64 S1204224x1 S1204224x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1204224x64.size a
  hwx0_0 : ∀ i : grid0.Coords, EltTy.bits .f32 = 32 ∨ (Rect.block (s := S1204224x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1204224.size a
  hwx0_1 : ∀ i : grid0.Coords, EltTy.bits .i32 = 32 ∨ (Rect.block (s := S1204224) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S1204224.size a
  hwx0_2 : ∀ i : grid0.Coords, EltTy.bits .f32 = 32 ∨ (Rect.block (s := S1204224) S8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x64.size a ≤ S24x64.size a
  hwx0_3 : ∀ i : grid0.Coords, EltTy.bits .f32 = 32 ∨ (Rect.block (s := S24x64) S24x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S1204224x64.size a
  hwx0_4 : ∀ i : grid0.Coords, EltTy.bits .f32 = 32 ∨ (Rect.block (s := S1204224x64) S8192x64.size (cc0_transform_4 i) (hinb0_4 i)).WholeWords (EltTy.packing .f32)

variable [Facts₀]

def gather_S100000x64_S1204224x1_S1204224x64_1_0_n_n_0_1_164 : GatherDims S100000x64 S1204224x1 S1204224x64 where
  offsetDims := [1]
  collapsedSliceDims := [0]
  operandBatchingDims := []
  startIndicesBatchingDims := []
  startIndexMap := [0]
  indexVectorDim := 1
  sliceSizes := ![1, 64]
  wf := gather_S100000x64_S1204224x1_S1204224x64_1_0_n_n_0_1_164_wf
def dot_S8192x24_S24x64_S8192x64_1_0_0_1_n_n : DotDims S8192x24 S24x64 S8192x64 where
  lhsContracting := [1]
  rhsContracting := [0]
  lhsNonContracting := [0]
  rhsNonContracting := [1]
  lhsBatch := []
  rhsBatch := []
  wf := dot_S8192x24_S24x64_S8192x64_1_0_0_1_n_n_wf
def scatter_S100001x64_S1204224x1_S1204224x64_1_0_0_1 : ScatterDims S100001x64 S1204224x1 S1204224x64 where
  updateWindowDims := [1]
  insertedWindowDims := [0]
  scatterDimsToOperandDims := [0]
  indexVectorDim := 1
  wf := scatter_S100001x64_S1204224x1_S1204224x64_1_0_0_1_wf

abbrev win0_0 : Pipeline.Window sig grid0 :=
  Pipeline.Window.ofSpec (Memref.whole main_v9) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S24x64 : Shape := ⟨2, ![24, 64]⟩
abbrev S1200000x1 : Shape := ⟨2, ![1200000, 1]⟩
abbrev S1x1200000 : Shape := ⟨2, ![1, 1200000]⟩
abbrev S_ : Shape := ⟨0, ![]⟩
abbrev S1200000x64 : Shape := ⟨2, ![1200000, 64]⟩

abbrev nBuf : Space → Nat
  | .hbm => 34
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .i32⟩
  | .hbm, ⟨3, _⟩ => ⟨S24x64, .f32⟩
  | .hbm, ⟨4, _⟩ => ⟨S1200000x1, .f32⟩
  | .hbm, ⟨5, _⟩ => ⟨S1x1200000, .i32⟩
  | .hbm, ⟨6, _⟩ => ⟨S1200000, .i32⟩
  | .hbm, ⟨7, _⟩ => ⟨S1x1200000, .i32⟩
  | .hbm, ⟨8, _⟩ => ⟨S1200000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S_, .i32⟩
  | .hbm, ⟨19, _⟩ => ⟨S1200000, .i32⟩
  | .hbm, ⟨20, _⟩ => ⟨S1200000, .i1⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S1200000, .i32⟩
  | .hbm, ⟨25, _⟩ => ⟨S1200000x1, .i32⟩
  | .hbm, ⟨26, _⟩ => ⟨S1200000x64, .f32⟩
  | .hbm, ⟨27, _⟩ => ⟨S1200000x64, .f32⟩
  | .hbm, ⟨28, _⟩ => ⟨S1200000x64, .f32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  gather_S100000x64_S1200000x1_S1200000x64_1_0_n_n_0_1_164_wf : GatherDims.WF S100000x64 S1200000x1 S1200000x64 [1] [0] [] [0] [] 1 ![1, 64]
  gather_S24x64_S1200000x1_S1200000x64_1_0_n_n_0_1_164_wf : GatherDims.WF S24x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S24x64_S1200000x1_S1200000x64_1_0_n_n_0_1_164 : GatherDims S24x64 S1200000x1 S1200000x64 where
  offsetDims := [1]
  collapsedSliceDims := [0]
  operandBatchingDims := []
  startIndicesBatchingDims := []
  startIndexMap := [0]
  indexVectorDim := 1
  sliceSizes := ![1, 64]
  wf := gather_S24x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.Spec.lean ====
/-
  What both programs compute, as one function of the five argument arrays.

  An edge `e` carries a head word and a tail word (rows 0 and 1 of the `2 × 1200000` index array), a relation word
  and a weight `aug e`. Its message, column by column, is
      msg e j = emb (tail e, j) · w (rel e, j) · aug e,
  and node `u`'s result is the sum of the messages of the edges whose head word, read signed, is `u`:
      G (u, j) = ∑ { e | head e = u } msg e j.
  Edges whose head word names no node contribute nowhere. The tail and relation words are read as row positions
  (`rowOf`); the statement is used where they are in range (`InRange`).

  Also here: the row a one-hot selector picks out of a table. `rel z a W c` is the sum over the 24 rows `r` of
  (`a` if `r` is the word `z`, else `0`) · `W (r, c)`; when `z` is below 24 only row `z` survives and the sum is
  `a · W (z, c)`, because `0 · x = 0` for every extended real `x`.
-/
import Idealize.ShloMosaic.PureOps.Ideal
import Idealize.ShloMosaic.Lib.ValueIdx
import Idealize.ShloMosaic.Lib.StableHlo.Predicate

noncomputable section

namespace Cert.EdgeAgg

open Idealize.ShloMosaic Idealize.ShloMosaic.ValueIdx

/-- A word as a row position of a table of `n` rows (the last row when the word is too large). -/
def rowOf {n : Nat} (hn : 0 < n) (z : BitVec 32) : Fin n := ⟨min z.toNat (n - 1), by omega⟩

theorem rowOf_val_of_lt {n : Nat} (hn : 0 < n) (z : BitVec 32) (h : z.toNat < n) : (rowOf hn z).val = z.toNat := by
  show min z.toNat (n - 1) = z.toNat
  omega

/-- The tail words name rows of the embedding table and the relation words rows of the relation table. -/
structure InRange (ei : IVec ⟨2, ![2, 1200000]⟩ 32) (et : IVec ⟨1, ![1200000]⟩ 32) : Prop where
  tail : ∀ e : Fin 1200000, (ei (ix2 (1 : Fin 2) e)).toNat < 100000
  rel : ∀ e : Fin 1200000, (et (ix1 e)).toNat < 24

/-- Edge `e`'s message at column `j`. -/
def msg (emb : FVec Ideal ⟨2, ![100000, 64]⟩ .f32) (ei : IVec ⟨2, ![2, 1200000]⟩ 32) (et : IVec ⟨1, ![1200000]⟩ 32)
    (w : FVec Ideal ⟨2, ![24, 64]⟩ .f32) (aug : FVec Ideal ⟨2, ![1200000, 1]⟩ .f32) (e : Fin 1200000) (j : Fin 64) : EReal :=
  emb (ix2 (rowOf (n := 100000) (by decide) (ei (ix2 (1 : Fin 2) e))) j)
    * w (ix2 (rowOf (n := 24) (by decide) (et (ix1 e))) j) * aug (ix2 e (0 : Fin 1))

/-- The aggregate: node `u`'s column `j` is the sum of the messages of the edges headed at `u`. -/
def G (emb : FVec Ideal ⟨2, ![100000, 64]⟩ .f32) (ei : IVec ⟨2, ![2, 1200000]⟩ 32) (et : IVec ⟨1, ![1200000]⟩ 32)
    (w : FVec Ideal ⟨2, ![24, 64]⟩ .f32) (aug : FVec Ideal ⟨2, ![1200000, 1]⟩ .f32) : FVec Ideal ⟨2, ![100000, 64]⟩ .f32 :=
  fun i => ∑ e ∈ Finset.univ.filter (fun e : Fin 1200000 => (ei (ix2 (0 : Fin 2) e)).toInt = ((i 0).val : ℤ)),
    msg emb ei et w aug e (i 1)

/-- A one-hot row selector against a table of 24 rows, at column `c`: row `r` is weighted `a` when `r` is the word
    `z` and `0` otherwise. -/
def rel (z : BitVec 32) (a : EReal) (W : (⟨2, ![24, 64]⟩ : Shape).Idx → EReal) (c : Fin 64) : EReal :=
  ∑ r : Fin 24, Scalar.select (IntOp.cmpi .eq (BitVec.ofNat 32 r.val) z) a (0 : EReal) * W (ix2 r c)

/-- Only the row the word names survives. -/
theorem rel_of_lt (z : BitVec 32) (a : EReal) (W : (⟨2, ![24, 64]⟩ : Shape).Idx → EReal) (c : Fin 64) (h : z.toNat < 24) :
    rel z a W c = a * W (ix2 (rowOf (n := 24) (by decide) z) c) := by
  have hv : (rowOf (n := 24) (by decide) z).val = z.toNat := rowOf_val_of_lt _ z h
  have hz : BitVec.ofNat 32 (rowOf (n := 24) (by decide) z).val = z := by
    rw [hv]
    exact BitVec.eq_of_toNat_eq (by rw [BitVec.toNat_ofNat]; exact Nat.mod_eq_of_lt z.isLt)
  unfold rel
  rw [Finset.sum_eq_single (rowOf (n := 24) (by decide) z)]
  · rw [StableHlo.Predicate.cmpi_eq_iff.mpr hz, select_one]
  · intro r _ hr
    have hne : ¬ IntOp.cmpi .eq (BitVec.ofNat 32 r.val) z = 1#1 := fun hc => hr (Fin.ext (by
      have h1 : BitVec.ofNat 32 r.val = z := StableHlo.Predicate.cmpi_eq_iff.mp hc
      have h2 : (BitVec.ofNat 32 r.val).toNat = r.val := by
        rw [BitVec.toNat_ofNat]; exact Nat.mod_eq_of_lt (by have := r.isLt; omega)
      rw [hv, ← h1, h2]))
    rw [eq_zero_of_ne_one hne, select_zero, zero_mul]
  · intro hn
    exact absurd (Finset.mem_univ _) hn

end Cert.EdgeAgg

end
-- ==== Proof.PreRange.lean ====
/-
  The stated domain read out of the precondition: every tail word of the index array is a row of the embedding table
  (`0 ≤ tail < 100000`) and every relation word is a row of the relation table (`0 ≤ rel < 24`). The precondition is a
  conjunction of whole-array `all` reductions; its last two conjuncts are these two ranges, each as a signed lower
  bound and a signed upper bound on every word, and a word that is non-negative as a signed number is its unsigned value.
-/
import proofs.«426303_j8040178778538_3_alg».proof.Pre_finite_inputs
import proofs.«426303_j8040178778538_3_alg».proof.Proof.Spec
import Idealize.ShloMosaic.Lib.ReduceAll
import Idealize.ShloMosaic.Lib.StableHlo.Predicate
import Idealize.ShloMosaic.Lib.Pipeline.Value

noncomputable section

namespace Cert.EdgeAgg

open Idealize.ShloMosaic Idealize.ShloMosaic.ValueIdx

open Cert.Pre_finite_inputs in
/-- The second row of the index array, sliced out and flattened, read at `e`: the word at `(1, e)`. -/
private theorem tail_read [Cert.Pre_finite_inputs.Facts] (a1 : IVec ⟨2, ![2, 1200000]⟩ 32) (e : Fin 1200000) :
    shapeCast S1200000 (extractStridedSlice S1x1200000 ![1, 0] a1 Facts.slices_S2x1200000_S1x1200000_1_0)
      Facts.shapeCasts_S1x1200000_S1200000 (ix1 e) = a1 (ix2 (1 : Fin 2) e) := by
  rw [shapeCast_apply _ Facts.shapeCasts_S1x1200000_S1200000 (ix1 e) (ix2 (0 : Fin 1) e)
    (by rewrite [Shape.rowMajor_val_two, Shape.rowMajor_val_one]; show 0 * 1200000 + e.val = e.val; omega)]
  exact extractStridedSlice_apply ![1, 0] a1 Facts.slices_S2x1200000_S1x1200000_1_0 (ix2 (0 : Fin 1) e) (ix2 (1 : Fin 2) e)
    (fun a => match a with
      | ⟨0, _⟩ => by show 1 = 1 + 0; omega
      | ⟨1, _⟩ => by show e.val = 0 + e.val; omega)

open Cert.Pre_finite_inputs in
/-- A scalar constant spread over the vector reads the constant everywhere. -/
private theorem bcast_const [Cert.Pre_finite_inputs.Facts] (c : BitVec 32) (e : Fin 1200000) :
    broadcastInDim S1200000 ![] Facts.bcast_S_S1200000 (constantI S_ 32 c) (ix1 e) = c := rfl

/-- The two halves of a pointwise `and` that is one at an index. -/
private theorem andi_at {s : Shape} (x y : IVec s 1) (i : s.Idx) (h : andi x y i = 1#1) : x i = 1#1 ∧ y i = 1#1 :=
  IntOp.andi_eq_one.1 h

/-- A word that is at least `0` and below `c`, both read signed, is below `c` read unsigned: a word that is
    non-negative as a signed number has its top bit clear, so its signed and unsigned readings agree. -/
private theorem toNat_lt_of_signed (z c : BitVec 32) (n : Nat) (hc : c.toInt = (n : Int))
    (h : IntOp.andi (IntOp.cmpi .sge z 0#32) (IntOp.cmpi .slt z c) = 1#1) : z.toNat < n := by
  obtain ⟨h1, h2⟩ := IntOp.andi_eq_one.1 h
  rw [IntOp.cmpi_sge, show (0#32 : BitVec 32).toInt = 0 from by decide] at h1
  rw [IntOp.cmpi_slt, hc] at h2
  have h3 : 2 * z.toNat < 2 ^ 32 := BitVec.toInt_pos_iff.1 h1
  rw [BitVec.toInt_eq_toNat_of_lt h3] at h2
  omega

theorem inRange_of_pre [Cert.Pre_finite_inputs.Facts]
    (a0 : FVec Ideal ⟨2, ![100000, 64]⟩ .f32) (a1 : IVec ⟨2, ![2, 1200000]⟩ 32) (a2 : IVec ⟨1, ![1200000]⟩ 32)
    (a3 : FVec Ideal ⟨2, ![24, 64]⟩ .f32) (a4 : FVec Ideal ⟨2, ![1200000, 1]⟩ .f32)
    (h : Cert.Pre_finite_inputs.fn (F := Ideal) a0 a1 a2 a3 a4 = fun _ => 1#1) : InRange a1 a2 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h1, h30⟩ := andi_at _ _ _ h0
  obtain ⟨-, h23⟩ := andi_at _ _ _ h1
  refine ⟨fun e => ?_, fun e => ?_⟩
  · have hk := Host.reduce_andi_all _ _ _ _ _ h23 (ix1 e)
    change IntOp.andi (IntOp.cmpi .sge _ _) (IntOp.cmpi .slt _ _) = 1#1 at hk
    rw [tail_read, bcast_const, bcast_const] at hk
    exact toNat_lt_of_signed _ _ 100000 (StableHlo.Predicate.toInt_ofNat_small 100000 (by norm_num)) hk
  · have hk := Host.reduce_andi_all _ _ _ _ _ h30 (ix1 e)
    change IntOp.andi (IntOp.cmpi .sge _ _) (IntOp.cmpi .slt _ _) = 1#1 at hk
    rw [bcast_const, bcast_const] at hk
    exact toNat_lt_of_signed _ _ 24 (StableHlo.Predicate.toInt_ofNat_small 24 (by norm_num)) hk

end Cert.EdgeAgg

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.RefValue.lean ====
/-
  The reference's result is the aggregate `G`. Its last line adds, into a zero table, each edge's product row at the row
  its head word names (a word naming no row adds nowhere), so node `u`'s column `j` is the sum over the edges headed at `u`.
  The product row is the embedding row at the tail word times the relation row at the relation word times the weight;
  with the words in range neither the sign wrap (`select (z < 0) (z + n) z`) nor the gather's clamp changes them.
-/
import proofs.«426303_j8040178778538_3_alg».proof.Proof.Gen.ReferenceIdeal.Read
import proofs.«426303_j8040178778538_3_alg».proof.Proof.Spec
import proofs.«426303_j8040178778538_3_alg».proof.Proof.LibScatterGather2
import Idealize.ShloMosaic.Lib.StableHlo.Predicate
import Idealize.ShloMosaic.Lib.ValueIdx
import Idealize.ShloMosaic.Lib.Pipeline.Value
import Idealize.ShloMosaic.PureOps.Ideal.Laws

noncomputable section

namespace Cert.EdgeAgg

open Idealize.ShloMosaic Idealize.ShloMosaic.ValueIdx Cert.ReferenceIdeal

/-- A word below 2³¹ is not negative: its signed compare with zero is the bit `0`. -/
private theorem slt_zero_of_small (t : BitVec 32) (ht : t.toNat < 2 ^ 31) : IntOp.cmpi .slt t 0#32 = 0#1 := by
  refine eq_zero_of_ne_one (fun hc => ?_)
  have h0 : t.toNat < (0#32 : BitVec 32).toNat := (StableHlo.Predicate.slt_iff_toNat ht (by decide)).mp hc
  exact absurd h0 (by simp)

/-- The sign wrap leaves a word below 2³¹ alone. -/
private theorem wrap_of_small (t a : BitVec 32) (ht : t.toNat < 2 ^ 31) :
    Scalar.select (IntOp.cmpi .slt t 0#32) a t = t := by
  rw [slt_zero_of_small t ht, select_zero]

/-- The scatter's index column at row `e` is edge `e`'s head word. -/
private theorem head_word (x1 : IVec ⟨2, ![2, 1200000]⟩ 32) (e : Fin 1200000) :
    Read.val_main_v22 (F := Ideal) x1 (ix2 e (0 : Fin 1)) = x1 (ix2 (0 : Fin 2) e) := by
  rw [Read.val_main_v22_apply, Read.val_main_v1_apply, Read.val_main_v0_apply]
  refine congrArg x1 ?_
  funext a
  match a with
  | ⟨0, _⟩ => exact Fin.ext rfl
  | ⟨1, _⟩ => exact Fin.ext (Nat.mod_eq_of_lt e.isLt)

/-- Row 1 of the index array, flattened, at `e` is edge `e`'s tail word. -/
private theorem tail_flat (x1 : IVec ⟨2, ![2, 1200000]⟩ 32) (e : Fin 1200000) :
    Read.val_main_v3 (F := Ideal) x1 (ix1 e) = x1 (ix2 (1 : Fin 2) e) := by
  rw [Read.val_main_v3_apply, Read.val_main_v2_apply]
  refine congrArg x1 ?_
  funext a
  match a with
  | ⟨0, _⟩ => exact Fin.ext rfl
  | ⟨1, _⟩ => exact Fin.ext (Nat.mod_eq_of_lt e.isLt)

/-- The first gather's index column at row `e` is edge `e`'s tail word when that word is small. -/
private theorem tail_word (x1 : IVec ⟨2, ![2, 1200000]⟩ 32) (e : Fin 1200000)
    (ht : (x1 (ix2 (1 : Fin 2) e)).toNat < 2 ^ 31) :
    Read.val_main_v9 (F := Ideal) x1 (ix2 e (0 : Fin 1)) = x1 (ix2 (1 : Fin 2) e) := by
  have hi : Read.idx_main_v9 (ix2 e (0 : Fin 1)) = ix1 e := by
    funext a
    match a with
    | ⟨0, _⟩ => exact Fin.ext rfl
  rw [Read.val_main_v9_apply, hi, Read.val_main_v8_apply, Read.val_main_v5_apply, tail_flat,
    Read.val_main_v4_apply, Read.val_main_c_apply]
  exact wrap_of_small _ _ ht

/-- The second gather's index column at row `e` is edge `e`'s relation word when that word is small. -/
private theorem rel_word (x2 : IVec ⟨1, ![1200000]⟩ 32) (e : Fin 1200000)
    (ht : (x2 (ix1 e)).toNat < 2 ^ 31) :
    Read.val_main_v16 (F := Ideal) x2 (ix2 e (0 : Fin 1)) = x2 (ix1 e) := by
  have hi : Read.idx_main_v16 (ix2 e (0 : Fin 1)) = ix1 e := by
    funext a
    match a with
    | ⟨0, _⟩ => exact Fin.ext rfl
  rw [Read.val_main_v16_apply, hi, Read.val_main_v15_apply, Read.val_main_v12_apply,
    Read.val_main_v11_apply, Read.val_main_c_1_apply]
  exact wrap_of_small _ _ ht

/-- A gather of rows whose index word at row `e` is `z`, below the number of rows: the row `z` names. -/
private theorem gather_row {α : Type} {N : Nat} (hN0 : 0 < N)
    (d : GatherDims ⟨2, ![N, 64]⟩ ⟨2, ![1200000, 1]⟩ ⟨2, ![1200000, 64]⟩)
    (hoff : d.offsetDims = [1]) (hcoll : d.collapsedSliceDims = [0]) (hob : d.operandBatchingDims = [])
    (hsim : d.startIndexMap = [0]) (hivd : d.indexVectorDim = 1)
    (x : (⟨2, ![N, 64]⟩ : Shape).Idx → α) (idx : IVec ⟨2, ![1200000, 1]⟩ 32) (e : Fin 1200000) (j : Fin 64)
    (z : BitVec 32) (hz : idx (ix2 e (0 : Fin 1)) = z) (hN : 2 * N ≤ 2 ^ 32) (h : z.toNat < N) :
    Host.gather d x idx (ix2 e j) = x (ix2 (rowOf hN0 z) j) := by
  subst hz
  rw [Cert.LibScatterGather2.gather_apply d hoff hcoll hob hsim hivd x idx e j hN h]
  exact congrArg x (congrArg (fun r => ix2 r j) (Fin.ext (rowOf_val_of_lt hN0 _ h).symm))

/-- Edge `e`'s product row at column `j` is its message. -/
private theorem update_eq_msg
    (x0 : FVec Ideal ⟨2, ![100000, 64]⟩ .f32) (x1 : IVec ⟨2, ![2, 1200000]⟩ 32) (x2 : IVec ⟨1, ![1200000]⟩ 32)
    (x3 : FVec Ideal ⟨2, ![24, 64]⟩ .f32) (x4 : FVec Ideal ⟨2, ![1200000, 1]⟩ .f32) (h : InRange x1 x2)
    (e : Fin 1200000) (j : Fin 64) :
    Read.val_main_v20 (F := Ideal) x0 x1 x2 x3 x4 (ix2 e j) = msg x0 x1 x2 x3 x4 e j := by
  have ht := h.tail e
  have hr := h.rel e
  have h10 : Read.val_main_v10 (F := Ideal) x0 x1 (ix2 e j)
      = x0 (ix2 (rowOf (n := 100000) (by decide) (x1 (ix2 (1 : Fin 2) e))) j) := by
    unfold Read.val_main_v10
    exact gather_row _ _ rfl rfl rfl rfl rfl x0 _ e j _ (tail_word x1 e (by omega)) (by norm_num) ht
  have h17 : Read.val_main_v17 (F := Ideal) x2 x3 (ix2 e j)
      = x3 (ix2 (rowOf (n := 24) (by decide) (x2 (ix1 e))) j) := by
    unfold Read.val_main_v17
    exact gather_row _ _ rfl rfl rfl rfl rfl x3 _ e j _ (rel_word x2 e (by omega)) (by norm_num) hr
  have h19 : Read.val_main_v19 (F := Ideal) x4 (ix2 e j) = x4 (ix2 e (0 : Fin 1)) := by
    rw [Read.val_main_v19_apply]
    refine congrArg x4 ?_
    funext a
    match a with
    | ⟨0, _⟩ => exact Fin.ext rfl
    | ⟨1, _⟩ => exact Fin.ext rfl
  rw [Read.val_main_v20_apply, Read.val_main_v18_apply, h10, h17, h19]
  rfl

theorem ref_eq_G [Cert.ReferenceIdeal.Facts]
    (x0 : FVec Ideal ⟨2, ![100000, 64]⟩ .f32) (x1 : IVec ⟨2, ![2, 1200000]⟩ 32) (x2 : IVec ⟨1, ![1200000]⟩ 32)
    (x3 : FVec Ideal ⟨2, ![24, 64]⟩ .f32) (x4 : FVec Ideal ⟨2, ![1200000, 1]⟩ .f32) (h : InRange x1 x2) :
    Cert.ReferenceIdeal.Read.val_main_v23 (F := Ideal) x0 x1 x2 x3 x4 = G x0 x1 x2 x3 x4 := by
  funext i
  obtain ⟨u, j, rfl⟩ : ∃ (u : Fin 100000) (j : Fin 64), i = ix2 u j := ⟨i 0, i 1, eq_ix2 i⟩
  unfold Read.val_main_v23
  rw [Cert.LibScatterGather2.scatterAdd_apply _ rfl rfl rfl rfl]
  rw [Read.val_main_v21_apply, Read.val_main_cst_apply]
  rw [show (FloatOps.ofBits (F := Ideal) .f32 0x00000000#32) = (0 : EReal) from Ideal.ofBits_zero_f32, zero_add]
  show _ = ∑ e ∈ Finset.univ.filter (fun e : Fin 1200000 => (x1 (ix2 (0 : Fin 2) e)).toInt = (u.val : ℤ)),
    msg x0 x1 x2 x3 x4 e j
  refine Finset.sum_congr (Finset.filter_congr (fun e _ => by rw [head_word])) (fun e _ => ?_)
  exact update_eq_msg x0 x1 x2 x3 x4 h e j

end Cert.EdgeAgg

end
-- ==== Proof.LibColumn.lean ====
/-
  Two layout operations on a column, read at an index. A column is an array of shape `[a, 1]`.

  * `broadcastTo_a1_ab_apply`: a column broadcast along `b` lanes reads, at `(p, c)`, the column's entry of row `p`
    (a keepdims reduction result, or a per-row scale, laid against a matrix).
  * `shapeCast_a_a1_apply`: a vector `[a]` cast to a column reads, at `(p, 0)`, the vector's entry `p`
    (`v[:, None]`, or a reshape `(a,) → (a, 1)`).

  Both are stated over the literal-extent index constructors `ix1`, `ix2`, for any element type.
-/
import Idealize.ShloMosaic.Lib.ValueIdx
import Idealize.ShloMosaic.Lib.Pipeline.Value

noncomputable section

namespace Cert.Lib

open Idealize.ShloMosaic Idealize.ShloMosaic.ValueIdx

/-- An `[a, 1]` column broadcast along `b` lanes reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib

end
-- ==== Proof.Payload.lean ====
/-
  The kernel body's stored value at row `p`, column `c` of a block of 8192 edges: the gathered tail row's entry times
  the one-hot selection of the relation table — the 8192 × 24 selector has the edge's weight in the column its relation
  word names and zero elsewhere, and its product with the 24 × 64 table from a zero accumulator is, at `(p, c)`, the sum
  over the 24 rows that `rel` names.
-/
import proofs.«426303_j8040178778538_3_alg».proof.Proof.Gen.KernelIdeal.Skeleton
import proofs.«426303_j8040178778538_3_alg».proof.Proof.Spec
import proofs.«426303_j8040178778538_3_alg».proof.Proof.LibColumn
import Idealize.ShloMosaic.PureOps.Ideal.Laws
import Idealize.ShloMosaic.Lib.ValueIdx
import Idealize.ShloMosaic.Lib.Pipeline.Value

noncomputable section

namespace Cert.EdgeAgg

open Idealize.ShloMosaic Idealize.ShloMosaic.ValueIdx Cert.KernelIdeal Cert.KernelIdeal.Gen

/-- An integer comparison of two arrays is taken entry by entry. -/
private theorem cmpi_at {s : Shape} {w : Nat} (q : CmpIPredicate) (x y : IVec s w) (i : s.Idx) :
    cmpi q x y i = IntOp.cmpi q (x i) (y i) := rfl

/-- The left operand's row coordinate is the output's row. -/
private theorem lhs_dot_S8192x24_S24x64_S8192x64_1_0_0_1_n_n_0 (j : S8192x64.Idx)
    (k : dot_S8192x24_S24x64_S8192x64_1_0_0_1_n_n.contr.Idx) :
    (dot_S8192x24_S24x64_S8192x64_1_0_0_1_n_n.lhsIdx j k 0 : ℕ) = j 0 := by
  simp [DotDims.lhsIdx, dot_S8192x24_S24x64_S8192x64_1_0_0_1_n_n]; rfl

/-- The left operand's column coordinate is the contraction position. -/
private theorem lhs_dot_S8192x24_S24x64_S8192x64_1_0_0_1_n_n_1 (j : S8192x64.Idx)
    (k : dot_S8192x24_S24x64_S8192x64_1_0_0_1_n_n.contr.Idx) :
    (dot_S8192x24_S24x64_S8192x64_1_0_0_1_n_n.lhsIdx j k 1 : ℕ) = k ⟨0, by decide⟩ :=
  dot_S8192x24_S24x64_S8192x64_1_0_0_1_n_n.lhsIdx_val_of_single (cl := 1) rfl j k

/-- The right operand's row coordinate is the contraction position. -/
private theorem rhs_dot_S8192x24_S24x64_S8192x64_1_0_0_1_n_n_0 (j : S8192x64.Idx)
    (k : dot_S8192x24_S24x64_S8192x64_1_0_0_1_n_n.contr.Idx) :
    (dot_S8192x24_S24x64_S8192x64_1_0_0_1_n_n.rhsIdx j k 0 : ℕ) = k ⟨0, by decide⟩ :=
  dot_S8192x24_S24x64_S8192x64_1_0_0_1_n_n.rhsIdx_val_of_single (cr := 0) rfl j k

/-- The right operand's column coordinate is the output's column. -/
private theorem rhs_dot_S8192x24_S24x64_S8192x64_1_0_0_1_n_n_1 (j : S8192x64.Idx)
    (k : dot_S8192x24_S24x64_S8192x64_1_0_0_1_n_n.contr.Idx) :
    (dot_S8192x24_S24x64_S8192x64_1_0_0_1_n_n.rhsIdx j k 1 : ℕ) = j 1 := by
  simp [DotDims.rhsIdx, dot_S8192x24_S24x64_S8192x64_1_0_0_1_n_n]; rfl

/-- At output `(p, c)` and contraction position `r` the left operand is read at `(p, r)`. -/
private theorem lhs_at (p : Fin 8192) (c : Fin 64) (r : Fin 24) :
    dot_S8192x24_S24x64_S8192x64_1_0_0_1_n_n.lhsIdx (ix2 p c)
      ((contrEquiv1 dot_S8192x24_S24x64_S8192x64_1_0_0_1_n_n 24 rfl rfl).symm r) = ix2 p r :=
  Shape.idx_ext₂ (lhs_dot_S8192x24_S24x64_S8192x64_1_0_0_1_n_n_0 _ _)
    ((lhs_dot_S8192x24_S24x64_S8192x64_1_0_0_1_n_n_1 _ _).trans
      (contrEquiv1_symm_val dot_S8192x24_S24x64_S8192x64_1_0_0_1_n_n 24 rfl rfl r))

/-- … and the right operand at `(r, c)`. -/
private theorem rhs_at (p : Fin 8192) (c : Fin 64) (r : Fin 24) :
    dot_S8192x24_S24x64_S8192x64_1_0_0_1_n_n.rhsIdx (ix2 p c)
      ((contrEquiv1 dot_S8192x24_S24x64_S8192x64_1_0_0_1_n_n 24 rfl rfl).symm r) = ix2 r c :=
  Shape.idx_ext₂ ((rhs_dot_S8192x24_S24x64_S8192x64_1_0_0_1_n_n_0 _ _).trans
      (contrEquiv1_symm_val dot_S8192x24_S24x64_S8192x64_1_0_0_1_n_n 24 rfl rfl r))
    (rhs_dot_S8192x24_S24x64_S8192x64_1_0_0_1_n_n_1 _ _)

/-- The stored value at `(p, c)`: the product is entrywise; the three casts to the same shape change nothing; the matrix
    product from the zero accumulator is the sum over the 24 contraction positions `r` of selector `(p, r)` times table
    `(r, c)` (a change of number format is the identity on the extended reals); and the selector at `(p, r)` compares
    the column number `r` with row `p`'s relation word, choosing row `p`'s weight or zero. -/
private theorem pay_at (v0 : Vec Ideal S8192 .i32) (v2 : Vec Ideal S8192 .f32) (v4 : Vec Ideal S8192x64 .f32)
    (v16 : Vec Ideal S24x64 .f32) (p : Fin 8192) (c : Fin 64) :
    k0_pay1 (F := Ideal) v0 v2 v4 v16 (ix2 p c) = v4 (ix2 p c) * rel (v0 (ix1 p)) (v2 (ix1 p)) v16 c := by
  unfold k0_pay1
  simp only [mulf_apply, shapeCast_self]
  refine (congrArg (v4 (ix2 p c) * ·) (Ideal.matmul_constant_zero_apply _ _ _ _ _)).trans ?_
  refine congrArg (v4 (ix2 p c) * ·) ?_
  unfold rel
  rw [← Equiv.sum_comp (contrEquiv1 dot_S8192x24_S24x64_S8192x64_1_0_0_1_n_n 24 rfl rfl).symm]
  refine Finset.sum_congr rfl fun r _ => ?_
  rw [lhs_at, rhs_at, truncf_apply, truncf_apply, select_apply]
  have h1 : iota .tc S8192x24 32 [1] iota_S8192x24_d1_w32 (ix2 p r) = BitVec.ofNat 32 r.val :=
    iota_single_apply .tc S8192x24 32 _ iota_S8192x24_d1_w32 (ix2 p r)
  have h2 : broadcastTo S8192x24 (shapeCast S8192x1 v0 shapeCasts_S8192_S8192x1) broadcasts_S8192x1_S8192x24 (ix2 p r)
      = v0 (ix1 p) :=
    (Cert.Lib.broadcastTo_a1_ab_apply _ _ p r).trans (Cert.Lib.shapeCast_a_a1_apply _ _ p 0)
  have h3 : broadcastTo S8192x24 (shapeCast S8192x1 v2 shapeCasts_S8192_S8192x1) broadcasts_S8192x1_S8192x24 (ix2 p r)
      = v2 (ix1 p) :=
    (Cert.Lib.broadcastTo_a1_ab_apply _ _ p r).trans (Cert.Lib.shapeCast_a_a1_apply _ _ p 0)
  have h4 : broadcast S8192x24 (FloatOps.ofBits (F := Ideal) .f32 0x00000000#32) (ix2 p r) = (0 : EReal) :=
    Ideal.ofBits_zero_f32
  rw [cmpi_at, h1, h2, h3, h4]

theorem pay_apply [Cert.KernelIdeal.Facts] (v0 : Vec Ideal S8192 .i32) (v2 : Vec Ideal S8192 .f32) (v4 : Vec Ideal S8192x64 .f32)
    (v16 : Vec Ideal S24x64 .f32) (p : Fin 8192) (c : Fin 64) :
    k0_pay1 (F := Ideal) v0 v2 v4 v16 (ix2 p c) = v4 (ix2 p c) * rel (v0 (ix1 p)) (v2 (ix1 p)) v16 c :=
  pay_at v0 v2 v4 v16 p c

end Cert.EdgeAgg

end
-- ==== Proof.RegionBlocks.lean ====
/-
  Blocks of the arrays the kernel's region reads, and the array it leaves: at edge position `e` (of the 1204224 padded positions) and column `j`,
      out (e, j) = T (e, j) · rel (ET e) (AUG e) W j,
  the gathered tail row's entry times the one-hot selection of the relation table by the edge's relation word, weighted by
  the edge's weight. Point `t` of the 147 grid points computes rows `8192 t … 8192 t + 8191` from the same rows of the three
  per-edge arrays and the whole relation table, and writes them back; the 147 blocks tile the array, so the whole array
  is that one function of the four arrays the region reads.
-/
import proofs.«426303_j8040178778538_3_alg».proof.Proof.Gen.KernelIdeal.Frame
import proofs.«426303_j8040178778538_3_alg».proof.Proof.Spec
import proofs.«426303_j8040178778538_3_alg».proof.Proof.Payload
import Idealize.ShloMosaic.Lib.Pipeline.Value
import Idealize.ShloMosaic.Lib.Tactic

noncomputable section

namespace Cert.EdgeAgg

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The edge position and the column of an index of the padded per-edge table. -/
def erow (k : S1204224x64.Idx) : Fin 1204224 := ⟨(k 0).val, idx2_lt0 k⟩
def ecol (k : S1204224x64.Idx) : Fin 64 := ⟨(k 1).val, idx2_lt1 k⟩

/-- The region's output as one function of the arrays it reads: gathered tail rows `T`, relation words `ET`, weights
    `AUG`, relation table `W`. -/
def outArr (T : S1204224x64.Idx → EReal) (ET : S1204224.Idx → BitVec 32) (AUG : S1204224.Idx → EReal)
    (W : S24x64.Idx → EReal) : S1204224x64.Idx → EReal :=
  fun k => T k * rel (ET (ix1 (erow k))) (AUG (ix1 (erow k))) W (ecol k)

theorem hz2 : (![0, 0] : Fin 2 → Nat) = fun _ => 0 := funext fun a => by fin_cases a <;> rfl
theorem hz1 : (![0] : Fin 1 → Nat) = fun _ => 0 := funext fun a => by fin_cases a; rfl

/-- The block index of each window at point `t`: the three per-edge windows and the output move with `t` along the
    edges, the relation table's window stays. -/
theorem idx_facts : ∀ t : Fin cfg0.N, win0_0.index t (0 : Fin 2) = t.val ∧ win0_0.index t (1 : Fin 2) = 0
    ∧ win0_1.index t (0 : Fin 1) = t.val ∧ win0_2.index t (0 : Fin 1) = t.val
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p`, column `q` of block `t` of the tail window, read off ANY array: row `8192 t + p`, column `q`. -/
theorem read_blk0 (A : S1204224x64.Idx → EReal) (t : Fin cfg0.N) (p : Fin 8192) (q : Fin 64) (k : S1204224x64.Idx)
    (hk0 : (k 0).val = t.val * 8192 + p.val) (hk1 : (k 1).val = q.val) :
    ((cfg0.win 0).blk t).view.read (Elt Ideal) A (ix2 p q) = A k := by
  obtain ⟨e00, e01, -⟩ := idx_facts t
  show A (((cfg0.win 0).blk t).view.emb (ix2 p q)) = A k
  refine congrArg A (funext fun a => Fin.ext ?_)
  match a with
  | ⟨0, _⟩ => show win0_0.index t 0 * 8192 + 1 * p.val = (k 0).val; rw [e00, hk0]; omega
  | ⟨1, _⟩ => show win0_0.index t 1 * 64 + 1 * q.val = (k 1).val; rw [e01, hk1]; omega

/-- Entry `p` of block `t` of the relation-word window, read off any array: entry `8192 t + p`. -/
theorem read_blk1 (A : S1204224.Idx → BitVec 32) (t : Fin cfg0.N) (p : Fin 8192) (k : S1204224.Idx)
    (hk0 : (k 0).val = t.val * 8192 + p.val) :
    ((cfg0.win 1).blk t).view.read (Elt Ideal) A (ix1 p) = A k := by
  obtain ⟨-, -, e1, -⟩ := idx_facts t
  show A (((cfg0.win 1).blk t).view.emb (ix1 p)) = A k
  refine congrArg A (funext fun a => Fin.ext ?_)
  match a with
  | ⟨0, _⟩ => show win0_1.index t 0 * 8192 + 1 * p.val = (k 0).val; rw [e1, hk0]; omega

/-- Entry `p` of block `t` of the weight window, read off any array: entry `8192 t + p`. -/
theorem read_blk2 (A : S1204224.Idx → EReal) (t : Fin cfg0.N) (p : Fin 8192) (k : S1204224.Idx)
    (hk0 : (k 0).val = t.val * 8192 + p.val) :
    ((cfg0.win 2).blk t).view.read (Elt Ideal) A (ix1 p) = A k := by
  obtain ⟨-, -, -, e2, -⟩ := idx_facts t
  show A (((cfg0.win 2).blk t).view.emb (ix1 p)) = A k
  refine congrArg A (funext fun a => Fin.ext ?_)
  match a with
  | ⟨0, _⟩ => show win0_2.index t 0 * 8192 + 1 * p.val = (k 0).val; rw [e2, hk0]; omega

/-- The relation table's window is the whole table at every point, whatever the table holds. -/
theorem read_blk3 (A : S24x64.Idx → EReal) (t : Fin cfg0.N) (y : S24x64.Idx) :
    ((cfg0.win 3).blk t).view.read (Elt Ideal) A y = A y := by
  obtain ⟨-, -, -, -, e30, e31, -⟩ := idx_facts t
  show A (((cfg0.win 3).blk t).view.emb y) = A y
  refine congrArg A (funext fun a => Fin.ext ?_)
  match a with
  | ⟨0, _⟩ => show win0_3.index t 0 * 24 + 1 * (y 0).val = (y 0).val; rw [e30]; omega
  | ⟨1, _⟩ => show win0_3.index t 1 * 64 + 1 * (y 1).val = (y 1).val; rw [e31]; omega

/-- The four window blocks at point `t` as reads of the arrays the region finds. -/
theorem tail_blk_apply (c : Dev nD) (t : Fin cfg0.N) (p : Fin 8192) (q : Fin 64) (k : S1204224x64.Idx)
    (hk0 : (k 0).val = t.val * 8192 + p.val) (hk1 : (k 1).val = q.val) :
    (iblk m c 0 t : Vec Ideal S8192x64 .f32) (ix2 p q) = (V m c main_v9 : S1204224x64.Idx → EReal) k :=
  read_blk0 (V m c main_v9) t p q k hk0 hk1

theorem et_blk_apply (c : Dev nD) (t : Fin cfg0.N) (p : Fin 8192) (k : S1204224.Idx)
    (hk0 : (k 0).val = t.val * 8192 + p.val) :
    (iblk m c 1 t : Vec Ideal S8192 .i32) (ix1 p) = (V m c main_v6 : S1204224.Idx → BitVec 32) k :=
  read_blk1 (V m c main_v6) t p k hk0

theorem aug_blk_apply (c : Dev nD) (t : Fin cfg0.N) (p : Fin 8192) (k : S1204224.Idx)
    (hk0 : (k 0).val = t.val * 8192 + p.val) :
    (iblk m c 2 t : Vec Ideal S8192 .f32) (ix1 p) = (V m c main_v7 : S1204224.Idx → EReal) k :=
  read_blk2 (V m c main_v7) t p k hk0

theorem w_blk_eq (c : Dev nD) (t : Fin cfg0.N) :
    (iblk m c 3 t : Vec Ideal S24x64 .f32) = (V m c main_arg3 : S24x64.Idx → EReal) :=
  funext fun y => read_blk3 (V m c main_arg3) t y

end Cert.EdgeAgg

end
-- ==== Proof.Region.lean ====
/-
  The array the kernel's region leaves is `outArr` of the four arrays it reads: what point `t` writes back is block `t` of
  `outArr` (the body's stored value at each row, with every block read where the output's row sits), and the 147 blocks of
  8192 rows tile the 1204224 rows.
-/
import proofs.«426303_j8040178778538_3_alg».proof.Proof.RegionBlocks

noncomputable section

namespace Cert.EdgeAgg

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- What point `t` stores at `y` of its block is `outArr` at the array index `y` sits at. -/
theorem blk_eq (c : Dev nD) (t : Fin cfg0.N) (y : S8192x64.Idx) :
    k0_pay1 (F := Ideal) (iblk m c 1 t) (iblk m c 2 t) (iblk m c 0 t) (iblk m c 3 t) y
      = outArr (V m c main_v9) (V m c main_v6) (V m c main_v7) (V m c main_arg3) (((cfg0.win 4).blk t).view.emb y) := by
  obtain ⟨p, q, rfl⟩ : ∃ (p : Fin 8192) (q : Fin 64), y = ix2 p q := ⟨y 0, y 1, eq_ix2 y⟩
  obtain ⟨-, -, -, -, -, -, e40, e41⟩ := idx_facts t
  have hk0 : ((((cfg0.win 4).blk t).view.emb (ix2 p q) : S1204224x64.Idx) 0).val = t.val * 8192 + p.val := by
    show win0_4.index t 0 * 8192 + 1 * p.val = _
    rw [e40]; omega
  have hk1 : ((((cfg0.win 4).blk t).view.emb (ix2 p q) : S1204224x64.Idx) 1).val = q.val := by
    show win0_4.index t 1 * 64 + 1 * q.val = _
    rw [e41]; omega
  refine (pay_apply (iblk m c 1 t) (iblk m c 2 t) (iblk m c 0 t) (iblk m c 3 t) p q).trans ?_
  unfold outArr
  rw [tail_blk_apply m c t p q _ hk0 hk1,
    et_blk_apply m c t p (ix1 (erow (((cfg0.win 4).blk t).view.emb (ix2 p q)))) hk0,
    aug_blk_apply m c t p (ix1 (erow (((cfg0.win 4).blk t).view.emb (ix2 p q)))) hk0,
    w_blk_eq m c t,
    show ecol (((cfg0.win 4).blk t).view.emb (ix2 p q)) = q from Fin.ext hk1]

/-- A block function `X` that agrees, entry by entry, with an array function `G` read where block `t` sits is what
    point `t` writes back of `G`. -/
theorem flushed_of_blk (X : S8192x64.Idx → EReal) (G : S1204224x64.Idx → EReal) (t : Fin cfg0.N)
    (h : ∀ y : S8192x64.Idx, X y = G (((cfg0.win 4).blk t).view.emb y)) :
    (cfg0.win 4).cut (grid0.coords t) X = ((cfg0.win 4).blk t).view.read (Elt Ideal) G := by
  funext y
  exact h _

/-- WHAT POINT `t` WRITES BACK is block `t` of `outArr` of the arrays as the region finds them. -/
theorem flushed_eq (c : Dev nD) (t : Fin cfg0.N) :
    (dats m 0 c).flushed 4 t
      = ((cfg0.win 4).blk t).view.read (Elt Ideal) (outArr (V m c main_v9) (V m c main_v6) (V m c main_v7) (V m c main_arg3)) := by
  show (cfg0.win 4).cut (grid0.coords t) ((dats m 0 c).after 4 t) = _
  rw [after0_4]
  unfold out0_4
  rw [View.canon_unit_zero hz2]
  simp only [View.ld_unit_zero (S := S8192x64) hz2, View.ld_unit_zero (S := S8192) hz1, View.ld_unit_zero (S := S24x64) hz2]
  exact flushed_of_blk _ _ t (blk_eq m c t)

/-- An index of the array is in point `t`'s block iff each coordinate is in the block's range on its axis. -/
theorem mem_blk (t : Fin cfg0.N) (i : S1204224x64.Idx) :
    i ∈ ((cfg0.win 4).blk t).view.set ↔ ∀ a : Fin 2, win0_4.index t a * S8192x64.size a ≤ (i a).val
      ∧ (i a).val < win0_4.index t a * S8192x64.size a + S8192x64.size a := by
  show i ∈ ((View.whole main_v10).slice (win0_4.rect t)).set ↔ _
  rw [View.set_slice_whole, Rect.mem_set_unit]
  exact Iff.rfl

/-- Row `r` is in the block of point `r / 8192`: the blocks tile the array. -/
theorem cover (i : S1204224x64.Idx) :
    ∃ t : Fin cfg0.N, (cfg0.win 4).flush t = true ∧ i ∈ ((cfg0.win 4).blk t).view.set := by
  have hi0 : (i 0).val < 1204224 := (i 0).isLt
  have hi1 : (i 1).val < 64 := (i 1).isLt
  have hN : cfg0.N = 147 := N_0
  have ht : (i 0).val / 8192 < cfg0.N := by rw [hN]; omega
  obtain ⟨-, -, -, -, -, -, e40, e41⟩ := idx_facts ⟨(i 0).val / 8192, ht⟩
  refine ⟨⟨(i 0).val / 8192, ht⟩, flush0_4 _, (mem_blk _ i).mpr fun a => ?_⟩
  match a with
  | ⟨0, _⟩ =>
    show win0_4.index ⟨(i 0).val / 8192, ht⟩ 0 * 8192 ≤ (i 0).val
      ∧ (i 0).val < win0_4.index ⟨(i 0).val / 8192, ht⟩ 0 * 8192 + 8192
    rw [e40]
    show (i 0).val / 8192 * 8192 ≤ (i 0).val ∧ (i 0).val < (i 0).val / 8192 * 8192 + 8192
    omega
  | ⟨1, _⟩ =>
    show win0_4.index ⟨(i 0).val / 8192, ht⟩ 1 * 64 ≤ (i 1).val
      ∧ (i 1).val < win0_4.index ⟨(i 0).val / 8192, ht⟩ 1 * 64 + 64
    rw [e41]
    omega

/-- THE ARRAY after the region: `outArr` of the four arrays the region reads. -/
theorem region_out (c : Dev nD) :
    (dats m 0 c).arrAt 4 cfg0.N = outArr (V m c main_v9) (V m c main_v6) (V m c main_v7) (V m c main_arg3) :=
  (dats m 0 c).arrAt_eq_of_cover 4 _ (fun t _ => flushed_eq m c t) cover

end Cert.EdgeAgg

end
-- ==== Proof.KernelValue.lean ====
/-
  The kernel program's result from the region's output: the host lines after the region add row `e` of the region's
  output into row `H e` of a zero table of 100001 rows (`H` the padded head words; a word naming no row adds nowhere) and
  keep rows 0 … 99999. So node `u`'s column `j` is the sum, over the padded edge positions whose head word read signed is
  `u`, of the region's output at `(e, j)`.
-/
import proofs.«426303_j8040178778538_3_alg».proof.Proof.Gen.KernelIdeal.Frame
import proofs.«426303_j8040178778538_3_alg».proof.Proof.Spec
import proofs.«426303_j8040178778538_3_alg».proof.Proof.LibScatterGather2
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.EdgeAgg

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The lines after the region, as one function of the padded head words `H` and the region's output `O`. -/
def KRes (H : S1204224.Idx → BitVec 32) (O : S1204224x64.Idx → EReal) : S100000x64.Idx → EReal :=
  extractStridedSlice S100000x64 ![0, 0]
    (Host.scatterAdd (F := Ideal) scatter_S100001x64_S1204224x1_S1204224x64_1_0_0_1
      (broadcastInDim S100001x64 ![] bcast_S_S100001x64 (constant (F := Ideal) S_ .f32 0x00000000#32))
      (broadcastInDim S1204224x1 ![0] bcast_S1204224_S1204224x1_0 H) O)
    slices_S100001x64_S100000x64_0_0

/-- The result buffer after the lines that follow the region. -/
theorem tail_eq (c : Dev nD) :
    Pipeline.afterTail₀ cfgs (dats m) 0 (V0 m) [hostOps1] c main_v14
      = KRes (V m c main_v8) ((dats m 0 c).arrAt 4 cfg0.N) := by
  unfold Pipeline.afterTail₀
  show StableHlo.after hostOps1 _ (Proc.devRef .tc main_v14) = _
  after_results
  have h8 : Pipeline.withArrays (cfgs 0).spec c (V0 m c) (fun w => (dats m 0 c).arrAt w (cfgs 0).N) (Proc.devRef .tc main_v8)
      = V m c main_v8 :=
    Pipeline.withArrays_of_ne _ c (V0 m c) _ main_v8 (by exact (by decide : ∀ w, Pipeline.arrRef spec0 w ≠ main_v8))
  have h10 : Pipeline.withArrays (cfgs 0).spec c (V0 m c) (fun w => (dats m 0 c).arrAt w (cfgs 0).N) (Proc.devRef .tc main_v10)
      = (dats m 0 c).arrAt 4 cfg0.N :=
    Pipeline.withArrays_arr spec0 launch0.win.arr_inj c _ _ 4
  rw [h8, h10]
  rfl

/-- Node `u`'s column `j` of the result: the region's output summed over the positions whose head word is `u`. -/
theorem KRes_apply (H : S1204224.Idx → BitVec 32) (O : S1204224x64.Idx → EReal) (u : Fin 100000) (j : Fin 64) :
    KRes H O (ix2 u j)
      = ∑ e ∈ Finset.univ.filter (fun e : Fin 1204224 => (H (ix1 e)).toInt = (u.val : ℤ)), O (ix2 e j) := by
  unfold KRes
  rw [slice2_axis0_apply 0 _ slices_S100001x64_S100000x64_0_0 u j (⟨u.val, by have := u.isLt; omega⟩ : Fin 100001) (by simp)]
  rw [Cert.LibScatterGather2.scatterAdd_apply _ rfl rfl rfl rfl]
  rw [broadcastInDim_scalar_apply, constant_apply, Ideal.ofBits_zero_f32, zero_add]
  refine Finset.sum_congr (Finset.filter_congr fun e _ => ?_) (fun _ _ => rfl)
  rw [broadcastInDim_apply ![0] bcast_S1204224_S1204224x1_0 H (ix2 e (0 : Fin 1)) (ix1 e)
    (fun a => match a with
      | ⟨0, _⟩ => by show e.val = if (1204224 : Nat) = 1 then 0 else e.val; rw [if_neg (by decide)])]

/-- The kernel program's run, read: the result buffer at `KRes` of the padded head words and the region's output, the
    arguments unchanged. -/
theorem kernel_run : θ_run defs (onTc (τ := τ) (main (F := Ideal))) ⟨m, fun _ => 0, ρ⟩ (fun r => ∀ c : Dev nD,
      r.2.mem ((c.tc : Thread nD τ).loc main_v14) = KRes (V m c main_v8) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.EdgeAgg

end
-- ==== Proof.HostPrefix.lean ====
/-
  What the region finds in the arrays the host lines before it wrote, read at an index. The relation words, the weights
  and the head words are each the argument's, padded from 1200000 to 1204224 entries (with 0, 0 and 100000); the gathered
  tail rows are the embedding table's rows at the padded tail words. At an edge below 1200000 each padded array reads the
  argument; past it the padded head array reads the word 100000, which names no node.
-/
import proofs.«426303_j8040178778538_3_alg».proof.Proof.Gen.KernelIdeal.Frame
import proofs.«426303_j8040178778538_3_alg».proof.Proof.Spec
import proofs.«426303_j8040178778538_3_alg».proof.Proof.LibScatterGather2
import Idealize.ShloMosaic.Lib.KernelVsHost
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value

noncomputable section

namespace Cert.EdgeAgg

open Idealize.ShloMosaic Idealize.ShloMosaic.TcCoe Idealize.ShloMosaic.ValueIdx Idealize.SL.Sem Cert.KernelIdeal Cert.KernelIdeal.Gen

variable [Cert.KernelIdeal.Facts] (m : (ℓ : Loc nD τ sig) → Buf (Elt Ideal) ℓ)

/-- Edge `e` as a position of a padded array. -/
abbrev up (e : Fin 1200000) : Fin 1204224 := ⟨e.val, by have := e.isLt; omega⟩

/-! ## Words -/

/-- A word below 100000 is not negative, so moving the negative words up by 100000 leaves it alone. -/
private theorem wrap_word (t : BitVec 32) (ht : t.toNat < 100000) :
    Scalar.select (IntOp.cmpi .slt t 0#32) (IntOp.addi t 100000#32) t = t := by
  unfold Scalar.select
  refine if_neg fun h => ?_
  have h' : t.toNat < 0 :=
    (StableHlo.Predicate.slt_iff_toNat (a := t) (b := 0#32) (by omega) (by decide)).mp h
  exact absurd h' (Nat.not_lt_zero _)

/-- A word below 100000 passes both range tests, `0 ≤ t` and `t ≤ 99999`. -/
private theorem tests_word (t : BitVec 32) (ht : t.toNat < 100000) :
    IntOp.andi (IntOp.cmpi .sge t 0#32) (IntOp.cmpi .sle t 99999#32) = 1#1 := by
  have h1 : IntOp.cmpi .sge t 0#32 = 1#1 :=
    (StableHlo.Predicate.sge_iff_toNat (a := t) (b := 0#32) (by omega) (by decide)).mpr (Nat.zero_le _)
  have h2 : IntOp.cmpi .sle t 99999#32 = 1#1 :=
    (StableHlo.Predicate.sle_iff_toNat (a := t) (b := 99999#32) (by omega) (by decide)).mpr
      (by show t.toNat ≤ 99999; omega)
  rw [h1, h2]
  decide

/-- An and-fold from 1 over entries that are all 1 is 1. -/
private theorem foldl_andi_one {ι : Type} (x : ι → BitVec 1) (l : List ι) (hx : ∀ i ∈ l, x i = 1#1) :
    l.foldl (fun r i => IntOp.andi r (x i)) 1#1 = 1#1 := by
  induction l with
  | nil => rfl
  | cons a l ih =>
    rw [List.foldl_cons, hx a (List.mem_cons.mpr (Or.inl rfl)), show IntOp.andi 1#1 1#1 = 1#1 from by decide]
    exact ih fun i hi => hx i (List.mem_cons_of_mem _ hi)

/-- A value carried to an equal type and back is itself. -/
private theorem cast_cast_id {A B : Type} (h : A = B) (h' : B = A) (v : B) : cast h (cast h' v) = v := by
  subst h
  rfl

/-! ## The three padded arguments -/

/-- The relation words as the region finds them: the argument, padded with 0. -/
private theorem V_v6_eq (c : Dev nD) :
    (V m c main_v6 : S1204224.Idx → BitVec 32)
      = pad S1204224 ![0] ![4224] ![0] (m ((c : Thread nD τ).loc main_arg2) : S1200000.Idx → BitVec 32)
          (id (constantI S_ 32 0#32)) pads_S1200000_S1204224_042240 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- The weights as the region finds them: the argument's one column as a vector, padded with the float of the word 0. -/
private theorem V_v7_eq (c : Dev nD) :
    (V m c main_v7 : S1204224.Idx → EReal)
      = pad S1204224 ![0] ![4224] ![0]
          (shapeCast S1200000 (m ((c : Thread nD τ).loc main_arg4) : S1200000x1.Idx → EReal) shapeCasts_S1200000x1_S1200000)
          (sitofp (F := Ideal) .f32 (constantI S_ 32 0#32)) pads_S1200000_S1204224_042240 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- The head words as the region finds them: row 0 of the index array as a vector, padded with the word 100000. -/
private theorem V_v8_eq (c : Dev nD) :
    (V m c main_v8 : S1204224.Idx → BitVec 32)
      = pad S1204224 ![0] ![4224] ![0]
          (shapeCast S1200000
            (extractStridedSlice S1x1200000 ![0, 0] (m ((c : Thread nD τ).loc main_arg1) : S2x1200000.Idx → BitVec 32)
              slices_S2x1200000_S1x1200000_0_0) shapeCasts_S1x1200000_S1200000)
          (id (constantI S_ 32 100000#32)) pads_S1200000_S1204224_042240 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- An edge's position in a padded array is inside the operand, at the edge. -/
private theorem up_inside (e : Fin 1200000) :
    ∀ a : Fin S1200000.rank, ((ix1 (up e) : S1204224.Idx) (a.cast pads_S1200000_S1204224_042240.1)).val
      = (![0] : Fin 1 → Nat) a + ((ix1 e : S1200000.Idx) a).val * ((![0] : Fin 1 → Nat) a + 1) := by
  intro a
  match a with
  | ⟨0, _⟩ => show e.val = 0 + e.val * (0 + 1); omega

theorem V_v6_apply (c : Dev nD) (e : Fin 1200000) :
    (V m c main_v6 : S1204224.Idx → BitVec 32) (ix1 (up e))
      = (m ((c : Thread nD τ).loc main_arg2) : S1200000.Idx → BitVec 32) (ix1 e) := by
  refine (congrFun (V_v6_eq m c) (ix1 (up e))).trans ?_
  exact pad_apply_of_inside _ _ _ _ _ pads_S1200000_S1204224_042240 h_S_ (ix1 (up e)) (ix1 e) (up_inside e)

theorem V_v7_apply (c : Dev nD) (e : Fin 1200000) :
    (V m c main_v7 : S1204224.Idx → EReal) (ix1 (up e))
      = (m ((c : Thread nD τ).loc main_arg4) : S1200000x1.Idx → EReal) (ix2 e (0 : Fin 1)) := by
  refine (congrFun (V_v7_eq m c) (ix1 (up e))).trans ?_
  refine (pad_apply_of_inside _ _ _ _ _ pads_S1200000_S1204224_042240 h_S_ (ix1 (up e)) (ix1 e) (up_inside e)).trans ?_
  refine shapeCast_apply _ shapeCasts_S1200000x1_S1200000 (ix1 e) (ix2 e (0 : Fin 1)) ?_
  rw [Shape.rowMajor_val_two, Shape.rowMajor_val_one]
  show e.val * 1 + 0 = e.val
  omega

theorem V_v8_apply_lt (c : Dev nD) (e : Fin 1200000) :
    (V m c main_v8 : S1204224.Idx → BitVec 32) (ix1 (up e))
      = (m ((c : Thread nD τ).loc main_arg1) : S2x1200000.Idx → BitVec 32) (ix2 (0 : Fin 2) e) := by
  refine (congrFun (V_v8_eq m c) (ix1 (up e))).trans ?_
  refine (pad_apply_of_inside _ _ _ _ _ pads_S1200000_S1204224_042240 h_S_ (ix1 (up e)) (ix1 e) (up_inside e)).trans ?_
  refine (shapeCast_apply _ shapeCasts_S1x1200000_S1200000 (ix1 e) (ix2 (0 : Fin 1) e) ?_).trans ?_
  · rw [Shape.rowMajor_val_two, Shape.rowMajor_val_one]
    show 0 * 1200000 + e.val = e.val
    omega
  · refine extractStridedSlice_apply _ _ slices_S2x1200000_S1x1200000_0_0 (ix2 (0 : Fin 1) e) (ix2 (0 : Fin 2) e) ?_
    intro a
    match a with
    | ⟨0, _⟩ => rfl
    | ⟨1, _⟩ => show e.val = 0 + e.val; omega

theorem V_v8_apply_ge (c : Dev nD) (e : Fin 1204224) (h : 1200000 ≤ e.val) :
    (V m c main_v8 : S1204224.Idx → BitVec 32) (ix1 e) = 100000#32 := by
  refine (congrFun (V_v8_eq m c) (ix1 e)).trans ?_
  refine (pad_apply_of_not_inside _ _ _ _ _ pads_S1200000_S1204224_042240 h_S_ (ix1 e) (0 : Fin 1) ?_).trans rfl
  intro hin
  have h3 : (e.val - 0) / (0 + 1) < 1200000 := hin.2.2
  omega

/-! ## The padded tail words -/

/-- The tail words (row 1 of the index array), padded with 0 to 1204224 entries. -/
private def tailPad (x : S2x1200000.Idx → BitVec 32) : S1204224.Idx → BitVec 32 :=
  pad S1204224 ![0] ![4224] ![0]
    (shapeCast S1200000 (extractStridedSlice S1x1200000 ![1, 0] x slices_S2x1200000_S1x1200000_1_0)
      shapeCasts_S1x1200000_S1200000)
    (id (constantI S_ 32 0#32)) pads_S1200000_S1204224_042240 h_S_

/-- The padded tail array at an edge is the edge's tail word. -/
private theorem tailPad_up (x : S2x1200000.Idx → BitVec 32) (e : Fin 1200000) :
    tailPad x (ix1 (up e)) = x (ix2 (1 : Fin 2) e) := by
  unfold tailPad
  refine (pad_apply_of_inside _ _ _ _ _ pads_S1200000_S1204224_042240 h_S_ (ix1 (up e)) (ix1 e) (up_inside e)).trans ?_
  refine (shapeCast_apply _ shapeCasts_S1x1200000_S1200000 (ix1 e) (ix2 (0 : Fin 1) e) ?_).trans ?_
  · rw [Shape.rowMajor_val_two, Shape.rowMajor_val_one]
    show 0 * 1200000 + e.val = e.val
    omega
  · refine extractStridedSlice_apply _ _ slices_S2x1200000_S1x1200000_1_0 (ix2 (0 : Fin 1) e) (ix2 (1 : Fin 2) e) ?_
    intro a
    match a with
    | ⟨0, _⟩ => rfl
    | ⟨1, _⟩ => show e.val = 0 + e.val; omega

/-! ## The take: rows of a table at a column of words, the out-of-range rows replaced -/

/-- The words with the negative ones moved up by 100000, as a column. -/
private def wrapIdx (tp : S1204224.Idx → BitVec 32) : S1204224x1.Idx → BitVec 32 :=
  broadcastInDim S1204224x1 ![0] bcast_S1204224_S1204224x1_0
    (select (cmpi .slt tp (broadcastInDim S1204224 ![] bcast_S_S1204224 (constantI S_ 32 0#32)))
      (addi tp (broadcastInDim S1204224 ![] bcast_S_S1204224 (constantI S_ 32 100000#32)))
      tp)

/-- The two range tests of a column of words, conjoined. -/
private def rangeTests (t5 : S1204224x1.Idx → BitVec 32) : S1204224x1.Idx → BitVec 1 :=
  andi (cmpi .sge t5 (broadcastInDim S1204224x1 ![] bcast_S_S1204224x1 (constantI S_ 32 0#32)))
    (cmpi .sle t5
      (broadcastInDim S1204224x1 ![0, 1] bcast_S1x1_S1204224x1_0_1
        (broadcastInDim S1x1 ![1] bcast_S1_S1x1_1 (constantI S1 32 99999#32))))

/-- Row by row: does the word name a row of the table. -/
private def rowOk (t5 : S1204224x1.Idx → BitVec 32) : S1204224.Idx → BitVec 1 :=
  Host.reduce IntOp.andi (rangeTests t5) (constantI S_ 1 1#1) reducesTo_S1204224x1_S1204224_d1 h_S_

/-- The rows of `emb` the words `tp` name, and `dflt` where a word names none. -/
private def takeRows {α : Type} (emb : S100000x64.Idx → α) (tp : S1204224.Idx → BitVec 32)
    (dflt : S1204224x64.Idx → α) : S1204224x64.Idx → α :=
  select (broadcastInDim S1204224x64 ![0] bcast_S1204224_S1204224x64_0 (rowOk (wrapIdx tp)))
    (Host.gather gather_S100000x64_S1204224x1_S1204224x64_1_0_n_n_0_1_164 emb (wrapIdx tp))
    dflt

/-- The wrapped column at a position whose word is below 100000 is that word. -/
private theorem wrapIdx_at (tp : S1204224.Idx → BitVec 32) (p : Fin 1204224) (q : Fin 1)
    (ht : (tp (ix1 p)).toNat < 100000) :
    wrapIdx tp (ix2 p q) = tp (ix1 p) := by
  unfold wrapIdx
  refine (broadcastInDim_apply _ bcast_S1204224_S1204224x1_0 _ (ix2 p q) (ix1 p) ?_).trans ?_
  · intro a
    match a with
    | ⟨0, _⟩ => rfl
  · show Scalar.select (IntOp.cmpi .slt (tp (ix1 p)) 0#32) (IntOp.addi (tp (ix1 p)) 100000#32) (tp (ix1 p)) = _
    exact wrap_word _ ht

/-- Both range tests hold where the word is below 100000. -/
private theorem rangeTests_at (t5 : S1204224x1.Idx → BitVec 32) (i : S1204224x1.Idx) (ht : (t5 i).toNat < 100000) :
    rangeTests t5 i = 1#1 := by
  show IntOp.andi (IntOp.cmpi .sge (t5 i) 0#32) (IntOp.cmpi .sle (t5 i) 99999#32) = 1#1
  exact tests_word _ ht

/-- So the row's conjunction over its one column is 1. -/
private theorem rowOk_at (t5 : S1204224x1.Idx → BitVec 32) (p : Fin 1204224)
    (ht : ∀ q : Fin 1, (t5 (ix2 p q)).toNat < 100000) :
    rowOk t5 (ix1 p) = 1#1 := by
  unfold rowOk
  rw [Host.reduce_eq_foldl]
  refine foldl_andi_one _ _ fun i hi => ?_
  have hd : reducesTo_S1204224x1_S1204224_d1.drop i = ix1 p := of_decide_eq_true (List.mem_filter.mp hi).2
  have h0 : (i 0).val = p.val := congrArg (fun f : S1204224.Idx => (f 0).val) hd
  have hi' : i = ix2 p (i 1) := (eq_ix2 i).trans (congrArg (fun p' => ix2 p' (i 1)) (Fin.ext h0))
  rw [hi']
  exact rangeTests_at t5 _ (ht _)

/-- The take at a position whose word names a row: that row of the table. -/
private theorem takeRows_at {α : Type} (emb : S100000x64.Idx → α) (tp : S1204224.Idx → BitVec 32)
    (dflt : S1204224x64.Idx → α) (p : Fin 1204224) (j : Fin 64) (ht : (tp (ix1 p)).toNat < 100000) :
    takeRows emb tp dflt (ix2 p j) = emb (ix2 (rowOf (n := 100000) (by decide) (tp (ix1 p))) j) := by
  have hw : ∀ q : Fin 1, wrapIdx tp (ix2 p q) = tp (ix1 p) := fun q => wrapIdx_at tp p q ht
  have hok : broadcastInDim S1204224x64 ![0] bcast_S1204224_S1204224x64_0 (rowOk (wrapIdx tp)) (ix2 p j) = 1#1 :=
    (broadcastInDim_apply _ bcast_S1204224_S1204224x64_0 _ (ix2 p j) (ix1 p) (by
      intro a
      match a with
      | ⟨0, _⟩ => rfl)).trans (rowOk_at _ p fun q => by rw [hw q]; exact ht)
  unfold takeRows
  refine (select_apply _ _ _ _).trans ?_
  rw [hok, select_one]
  refine (Cert.LibScatterGather2.gather_apply _ rfl rfl rfl rfl rfl emb (wrapIdx tp) p j (by omega) ?_).trans ?_
  · rw [hw 0]
    exact ht
  · refine congrArg (fun r => emb (ix2 r j)) (Fin.ext ?_)
    show (wrapIdx tp (ix2 p (0 : Fin 1))).toNat = (rowOf (n := 100000) (by decide) (tp (ix1 p))).val
    rw [hw 0, rowOf_val_of_lt _ _ ht]

/-- The same with every definition written out: the form the host lines' term has. -/
private theorem take_at {α : Type} (emb : S100000x64.Idx → α) (tp : S1204224.Idx → BitVec 32)
    (dflt : S1204224x64.Idx → α) (p : Fin 1204224) (j : Fin 64) (ht : (tp (ix1 p)).toNat < 100000) :
    select
        (broadcastInDim S1204224x64 ![0] bcast_S1204224_S1204224x64_0
          (Host.reduce IntOp.andi
            (andi
              (cmpi .sge
                (broadcastInDim S1204224x1 ![0] bcast_S1204224_S1204224x1_0
            (select (cmpi .slt tp (broadcastInDim S1204224 ![] bcast_S_S1204224 (constantI S_ 32 0#32)))
              (addi tp (broadcastInDim S1204224 ![] bcast_S_S1204224 (constantI S_ 32 100000#32)))
              tp))
                (broadcastInDim S1204224x1 ![] bcast_S_S1204224x1 (constantI S_ 32 0#32)))
              (cmpi .sle
                (broadcastInDim S1204224x1 ![0] bcast_S1204224_S1204224x1_0
            (select (cmpi .slt tp (broadcastInDim S1204224 ![] bcast_S_S1204224 (constantI S_ 32 0#32)))
              (addi tp (broadcastInDim S1204224 ![] bcast_S_S1204224 (constantI S_ 32 100000#32)))
              tp))
                (broadcastInDim S1204224x1 ![0, 1] bcast_S1x1_S1204224x1_0_1
                  (broadcastInDim S1x1 ![1] bcast_S1_S1x1_1 (constantI S1 32 99999#32)))))
            (constantI S_ 1 1#1) reducesTo_S1204224x1_S1204224_d1 h_S_))
        (Host.gather gather_S100000x64_S1204224x1_S1204224x64_1_0_n_n_0_1_164 emb
          (broadcastInDim S1204224x1 ![0] bcast_S1204224_S1204224x1_0
            (select (cmpi .slt tp (broadcastInDim S1204224 ![] bcast_S_S1204224 (constantI S_ 32 0#32)))
              (addi tp (broadcastInDim S1204224 ![] bcast_S_S1204224 (constantI S_ 32 100000#32)))
              tp)))
        dflt (ix2 p j)
      = emb (ix2 (rowOf (n := 100000) (by decide) (tp (ix1 p))) j) :=
  takeRows_at emb tp dflt p j ht

/-! ## The gathered tail rows -/

set_option maxHeartbeats 1000000 in
theorem V_v9_apply (c : Dev nD) (e : Fin 1200000) (j : Fin 64)
    (ht : ((m ((c : Thread nD τ).loc main_arg1) : S2x1200000.Idx → BitVec 32) (ix2 (1 : Fin 2) e)).toNat < 100000) :
    (V m c main_v9 : S1204224x64.Idx → EReal) (ix2 (up e) j)
      = (m ((c : Thread nD τ).loc main_arg0) : S100000x64.Idx → EReal)
          (ix2 (rowOf (n := 100000) (by decide) ((m ((c : Thread nD τ).loc main_arg1) : S2x1200000.Idx → BitVec 32) (ix2 (1 : Fin 2) e))) j) := by
  have hp := tailPad_up (m ((c : Thread nD τ).loc main_arg1) : S2x1200000.Idx → BitVec 32) e
  have hout : ∀ X : S1204224x64.Idx → EReal,
      ((StableHlo.TRef.of main_v9 : StableHlo.TRef sig ⟨S1204224x64, .f32⟩).toBuf (Val := Elt Ideal) X
        : S1204224x64.Idx → EReal) = X := fun _ => rfl
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [cast_cast_id]
  refine (congrFun (hout _) _).trans ?_
  refine (take_at _ _ _ (up e) j ?_).trans ?_
  · show (tailPad (m ((c : Thread nD τ).loc main_arg1) : S2x1200000.Idx → BitVec 32) (ix1 (up e))).toNat < 100000
    rw [hp]
    exact ht
  · show (m ((c : Thread nD τ).loc main_arg0) : S100000x64.Idx → EReal)
        (ix2 (rowOf (n := 100000) (by decide)
          (tailPad (m ((c : Thread nD τ).loc main_arg1) : S2x1200000.Idx → BitVec 32) (ix1 (up e)))) j) = _
    rw [hp]

end Cert.EdgeAgg

end
-- ==== Proof.Bridge.lean ====
/-
  The kernel program's result is the aggregate `G`.

  The result sums the region's output over the PADDED edge positions whose head word is `u`. A padded position past the
  1200000 edges carries the head word 100000, which is no node `u < 100000`, so only true edges are summed; at a true edge
  `e` the padded arrays read the arguments, the gathered tail row is the embedding row at the tail word, and the one-hot
  selection keeps the relation row at the relation word: the region's output there is `emb · (aug · w)`, the message
  `emb · w · aug` with its factors regrouped (products of extended reals commute and associate).
-/
import proofs.«426303_j8040178778538_3_alg».proof.Proof.Region
import proofs.«426303_j8040178778538_3_alg».proof.Proof.KernelValue
import proofs.«426303_j8040178778538_3_alg».proof.Proof.HostPrefix

noncomputable section

namespace Cert.EdgeAgg

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem kernel_eq_G (c : Dev nD)
    (hr : InRange (m ((c : Thread nD τ).loc main_arg1)) (m ((c : Thread nD τ).loc main_arg2))) :
    KRes (V m c main_v8) ((dats m 0 c).arrAt 4 cfg0.N)
      = G (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨u, j, rfl⟩ : ∃ (u : Fin 100000) (j : Fin 64), i = ix2 u j := ⟨i 0, i 1, eq_ix2 i⟩
  rw [KRes_apply, region_out]
  unfold G
  symm
  refine Finset.sum_bij (fun e _ => up e) ?_ ?_ ?_ ?_
  · intro e he
    rw [Finset.mem_filter] at he ⊢
    refine ⟨Finset.mem_univ _, ?_⟩
    rw [V_v8_apply_lt]
    exact he.2
  · intro e _ e' _ h
    exact Fin.ext (show e.val = e'.val from congrArg (fun x : Fin 1204224 => x.val) h)
  · intro e' he'
    rw [Finset.mem_filter] at he'
    by_cases hlt : e'.val < 1200000
    · refine ⟨⟨e'.val, hlt⟩, ?_, Fin.ext rfl⟩
      rw [Finset.mem_filter]
      refine ⟨Finset.mem_univ _, ?_⟩
      have h2 := he'.2
      rw [show e' = up ⟨e'.val, hlt⟩ from Fin.ext rfl, V_v8_apply_lt] at h2
      exact h2
    · exfalso
      have h2 := he'.2
      rw [V_v8_apply_ge m c e' (by omega), show (100000#32 : BitVec 32).toInt = 100000 from by decide] at h2
      have hu := u.isLt
      omega
  · intro e he
    show msg _ _ _ _ _ e j = outArr _ _ _ _ (ix2 (up e) j)
    unfold outArr msg
    rw [show erow (ix2 (up e) j) = up e from Fin.ext rfl, show ecol (ix2 (up e) j) = j from Fin.ext rfl]
    rw [V_v9_apply m c e j (hr.tail e), V_v6_apply, V_v7_apply, V_main_arg3, rel_of_lt _ _ _ _ (hr.rel e)]
    rw [mul_assoc]
    exact congrArg _ (mul_comm _ _)

end Cert.EdgeAgg

end
-- ==== Proof.lean ====
/-
  Relation-weighted neighbour aggregation over a graph of 100000 nodes and 1200000 edges, 64 channels, 24 relations:
      result (u, j) = ∑ { e | head e = u } emb (tail e, j) · w (rel e, j) · aug e.

  The reference gathers the two rows of every edge, multiplies them and the edge weight, and scatter-adds the products by
  head word. The kernel program pads the per-edge words to 147 blocks of 8192, gathers the tail rows on the host, forms
  in each block the product of the tail row with a one-hot selection of the relation table (the edge weight folded into
  the selector, the selection a 8192 × 24 by 24 × 64 matrix product from a zero accumulator), scatter-adds into a table
  with one spare row for the padding and drops that row.

  The statement carries the domain of the two index inputs that are used as row positions: tail words in [0, 100000) and
  relation words in [0, 24). On it both programs compute `G` (Proof/Spec.lean):
    · the reference by reading its stages at an index (Proof/RefValue.lean);
    · the kernel program through the region's output as one function of the arrays it reads (Proof/Payload.lean,
      Proof/Region.lean), those arrays read back to the arguments (Proof/HostPrefix.lean), the lines after the region
      (Proof/KernelValue.lean) and the regrouping of each product and the dropping of the padded positions
      (Proof/Bridge.lean).
  Head words are unconstrained: a word naming no node adds nowhere in either program. No finiteness is used: only
  commutativity and associativity of the product and `0 · x = 0`, which hold for all extended reals.
-/
import proofs.«426303_j8040178778538_3_alg».proof.Defs
import proofs.«426303_j8040178778538_3_alg».proof.Proof.Gen.Kernel
import proofs.«426303_j8040178778538_3_alg».proof.Proof.Gen.Kernel.Skeleton
import proofs.«426303_j8040178778538_3_alg».proof.Proof.Gen.Kernel.Launch
import proofs.«426303_j8040178778538_3_alg».proof.Proof.Gen.Kernel.Points
import proofs.«426303_j8040178778538_3_alg».proof.Proof.Gen.Kernel.Frame
import proofs.«426303_j8040178778538_3_alg».proof.Proof.Gen.KernelIdeal
import proofs.«426303_j8040178778538_3_alg».proof.Proof.Gen.KernelIdeal.Skeleton
import proofs.«426303_j8040178778538_3_alg».proof.Proof.Gen.KernelIdeal.Launch
import proofs.«426303_j8040178778538_3_alg».proof.Proof.Gen.KernelIdeal.Points
import proofs.«426303_j8040178778538_3_alg».proof.Proof.Gen.KernelIdeal.Frame
import proofs.«426303_j8040178778538_3_alg».proof.Proof.Gen.ReferenceIdeal
import proofs.«426303_j8040178778538_3_alg».proof.Proof.Gen.ReferenceIdeal.Run
import proofs.«426303_j8040178778538_3_alg».proof.Proof.Gen.ReferenceIdeal.Read
import proofs.«426303_j8040178778538_3_alg».proof.Proof.Gen.Pre_finite_inputs
import proofs.«426303_j8040178778538_3_alg».proof.Proof.PreRange
import proofs.«426303_j8040178778538_3_alg».proof.Proof.RefValue
import proofs.«426303_j8040178778538_3_alg».proof.Proof.Bridge
import Idealize.ShloMosaic.Adequacy
import Idealize.ShloMosaic.Init

noncomputable section

namespace Cert.Proof

open Idealize.ShloMosaic Idealize.ShloMosaic.TcCoe Idealize.SL.Sem Cert.EdgeAgg

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at `G` of the arguments: the kernel program by its run read through the region and the lines
    around it, the reference by its run read stage by stage, the arguments agreeing. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) :=
    fun c => inRange_of_pre _ _ _ _ _ (hpre c)
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (kernel_eq_G m c (hr c)), (h c).2⟩) (kernel_run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2.1, (hagree c).2.2.1, (hagree c).2.2.2.1,
      (hagree c).2.2.2.2]
    exact ref_eq_G _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
